-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x1024x1024 : Shape := ⟨4, ![16, 3, 1024, 1024]⟩
abbrev S_ : Shape := ⟨0, ![]⟩

class Facts : Prop where
  bcast_S_S16x3x1024x1024 : S_.BroadcastsInDim S16x3x1024x1024 (![] : Fin 0 → Fin S16x3x1024x1024.rank)
  reducesTo_S16x3x1024x1024_S_d0_1_2_3 : S16x3x1024x1024.ReducesTo [0, 1, 2, 3] S_
  h_S_ : 0 < S_.numel

variable [Facts]

def fn {F : FTy → Type} [FloatOps F] (main_arg0 : FVec F S16x3x1024x1024 .f32) : IVec S_ 1 :=
  let main_v0 : FVec F S16x3x1024x1024 .f32 := Host.absf main_arg0
  let main_cst : FVec F S_ .f32 := constant S_ .f32 0x7F800000#32
  let main_v1 : FVec F S16x3x1024x1024 .f32 := broadcastInDim S16x3x1024x1024 ![] bcast_S_S16x3x1024x1024 main_cst
  let main_v2 : IVec S16x3x1024x1024 1 := cmpf .olt main_v0 main_v1
  let main_c : IVec S_ 1 := constantI S_ 1 1#1
  let main_v3 : IVec S_ 1 := (fun x v => Host.reduce IntOp.andi x v reducesTo_S16x3x1024x1024_S_d0_1_2_3 h_S_) main_v2 main_c
  main_v3
-- ==== Kernel.lean ====
abbrev S16x3x1024x1024 : Shape := ⟨4, ![16, 3, 1024, 1024]⟩
abbrev S48x1024x1024 : Shape := ⟨3, ![48, 1024, 1024]⟩
abbrev S16x3x1x1 : Shape := ⟨4, ![16, 3, 1, 1]⟩
abbrev S48x1x1 : Shape := ⟨3, ![48, 1, 1]⟩
abbrev S1x1x1 : Shape := ⟨3, ![1, 1, 1]⟩
abbrev S1x1024x1024 : Shape := ⟨3, ![1, 1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16x3x1024x1024, .f32⟩
  | .hbm, ⟨1, _⟩ => ⟨S48x1024x1024, .f32⟩
  | .hbm, ⟨2, _⟩ => ⟨S16x3x1x1, .f32⟩
  | .hbm, ⟨3, _⟩ => ⟨S48x1x1, .f32⟩
  | .hbm, ⟨4, _⟩ => ⟨S48x1024x1024, .f32⟩
  | .hbm, ⟨5, _⟩ => ⟨S16x3x1024x1024, .f32⟩
  | .local _ .vmem, ⟨0, _⟩ => ⟨S1x1x1, .f32⟩
  | .local _ .vmem, ⟨1, _⟩ => ⟨S1x1x1, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | _, _ => ⟨S16x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![48], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x3x1024x1024_S48x1024x1024 : S16x3x1024x1024.ShapeCasts S48x1024x1024
  slices_S16x3x1024x1024_S16x3x1x1_0_0_0_0 : S16x3x1024x1024.Slices ![0, 0, 0, 0] S16x3x1x1
  shapeCasts_S16x3x1x1_S48x1x1 : S16x3x1x1.ShapeCasts S48x1x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1x1024x1024 : S1x1024x1024.ShapeCasts S1x1024x1024
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  broadcasts_S1x1x1_S1x1024x1024 : S1x1x1.Broadcasts S1x1024x1024
  shapeCasts_S48x1024x1024_S16x3x1024x1024 : S48x1024x1024.ShapeCasts S16x3x1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1.size a ≤ S48x1x1.size a
  hwx0_0 : ∀ i : grid0.Coords, EltTy.bits .f32 = 32 ∨ (Rect.block (s := S48x1x1) S1x1x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S48x1024x1024.size a
  hwx0_1 : ∀ i : grid0.Coords, EltTy.bits .f32 = 32 ∨ (Rect.block (s := S48x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S48x1024x1024.size a
  hwx0_2 : ∀ i : grid0.Coords, EltTy.bits .f32 = 32 ∨ (Rect.block (s := S48x1024x1024) S1x1024x1024.size (cc0_transform_2 i) (hinb0_2 i)).WholeWords (EltTy.packing .f32)

variable [Facts₀]

abbrev win0_0 : Pipeline.Window sig grid0 :=
  Pipeline.Window.ofSpec (Memref.whole main_v2) S1x1x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x3x1024x1024 : Shape := ⟨4, ![16, 3, 1024, 1024]⟩
abbrev S16x3x1x1 : Shape := ⟨4, ![16, 3, 1, 1]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16x3x1024x1024, .f32⟩
  | .hbm, ⟨1, _⟩ => ⟨S16x3x1x1, .f32⟩
  | .hbm, ⟨2, _⟩ => ⟨S16x3x1024x1024, .f32⟩
  | .hbm, ⟨3, _⟩ => ⟨S16x3x1024x1024, .i1⟩
  | .hbm, ⟨4, _⟩ => ⟨S_, .f32⟩
  | .hbm, ⟨5, _⟩ => ⟨S_, .f32⟩
  | .hbm, ⟨6, _⟩ => ⟨S16x3x1024x1024, .f32⟩
  | .hbm, ⟨7, _⟩ => ⟨S16x3x1024x1024, .f32⟩
  | .hbm, ⟨8, _⟩ => ⟨S16x3x1024x1024, .f32⟩
  | _, _ => ⟨S16x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_v3 : Ref sig .tc := ⟨.hbm, 8, rfl⟩

abbrev nD : Nat := 1
abbrev τ : Topo := Topo.v7x

variable {F : FTy → Type} [FloatOps F]

class Facts₀ : Prop where
  slices_S16x3x1024x1024_S16x3x1x1_0_0_0_0 : S16x3x1024x1024.Slices ![0, 0, 0, 0] S16x3x1x1
  bcast_S16x3x1x1_S16x3x1024x1024_0_1_2_3 : S16x3x1x1.BroadcastsInDim S16x3x1024x1024 (![0, 1, 2, 3] : Fin 4 → Fin S16x3x1024x1024.rank)
  bcast_S_S16x3x1024x1024 : S_.BroadcastsInDim S16x3x1024x1024 (![] : Fin 0 → Fin S16x3x1024x1024.rank)

variable [Facts₀]

class Facts : Prop extends Facts₀ where

variable [Facts]
-- ==== Proof.CornerMarks.lean ====
/-
  Comparing every pixel of an image plane with the plane's corner pixel.

  The input is a batch of images x[b, c, y, x] with 16 × 3 planes of 1024 × 1024 pixels. The result marks each
  pixel: 1 where it differs from the top-left pixel x[b, c, 0, 0] of its own plane, 0 where it equals it.

  This file states that result as ONE function of the input, index by index (marks), and names the flattened
  comparison (planeMarks): the two leading axes merged into one axis of 48 planes, plane n compared with the
  n-th of 48 corner scalars; flattened_marks shows that flattening, comparing so and splitting the axis again is
  marks. On extended reals nothing is unordered, so "ordered and different" and
  "unordered or different" are the same test (cmp_one_eq_une); no property of the input is used anywhere.
-/
import Idealize.ShloMosaic.PureOps.Ideal
import Idealize.ShloMosaic.Lib.ValueIdx
import Idealize.ShloMosaic.Lib.Pipeline.Value

noncomputable section

namespace Cert.CornerMarks

open Idealize.ShloMosaic Idealize.ShloMosaic.ValueIdx

/-- The image batch: 16 images of 3 planes of 1024 × 1024 pixels. -/
abbrev Img : Shape := ⟨4, ![16, 3, 1024, 1024]⟩
/-- The same pixels with the two leading axes merged: 48 planes. -/
abbrev Planes : Shape := ⟨3, ![48, 1024, 1024]⟩
/-- One corner pixel per plane, as a slice of the batch … -/
abbrev Corners : Shape := ⟨4, ![16, 3, 1, 1]⟩
/-- … and with the two leading axes merged. -/
abbrev PlaneCorners : Shape := ⟨3, ![48, 1, 1]⟩

/-- The two marks: the single-precision patterns of 1.0 and 0.0. Both spellings write the same two
    patterns, so what they denote is never needed. -/
abbrev differs : Ideal .f32 := Ideal.ofBits .f32 0x3F800000#32
abbrev same : Ideal .f32 := Ideal.ofBits .f32 0x00000000#32

/-- THE RESULT: pixel (b, c, y, x) is marked differs when it is not equal to pixel (b, c, 0, 0), else same. -/
def marks (x : FVec Ideal Img .f32) : FVec Ideal Img .f32 := fun i =>
  Scalar.select (FloatOps.cmpf .une (x i) (x (ix4 (i 0) (i 1) (0 : Fin 1024) (0 : Fin 1024)))) differs same

/-- On the extended reals the ordered and the unordered "not equal" are one test. -/
theorem cmp_one_eq_une (a b : Ideal .f32) : FloatOps.cmpf .one a b = FloatOps.cmpf .une a b := rfl

/-- The flattened comparison: plane n of 48 against the n-th corner scalar. -/
def planeMarks (a : FVec Ideal Planes .f32) (k : FVec Ideal PlaneCorners .f32) : FVec Ideal Planes .f32 := fun j =>
  Scalar.select (FloatOps.cmpf .one (a j) (k (ix3 (j 0) (0 : Fin 1) (0 : Fin 1)))) differs same

/-- THE FLATTENED SPELLING IS THE RESULT. Merge the two leading axes of the batch (48 planes), slice the corners out
    of the batch and merge their leading axes too (48 scalars), compare plane by plane, and split the leading axis of
    the answer again: that is marks of the batch. A reshape keeps the row-major position, so pixel (b, c, y, x) sits
    in plane n = 3 b + c at (y, x), the n-th corner scalar is the slice at (b, c, 0, 0), which is the batch there; and
    the ordered "not equal" is the unordered one. -/
theorem flattened_marks (x : FVec Ideal Img .f32) (h1 : Img.ShapeCasts Planes) (hs : Img.Slices ![0, 0, 0, 0] Corners)
    (h2 : Corners.ShapeCasts PlaneCorners) (h3 : Planes.ShapeCasts Img) :
    shapeCast Img (planeMarks (shapeCast Planes x h1) (shapeCast PlaneCorners (extractStridedSlice Corners ![0, 0, 0, 0] x hs) h2)) h3
      = marks x := by
  funext i
  obtain ⟨b, c, y, z, rfl⟩ : ∃ (b : Fin 16) (c : Fin 3) (y z : Fin 1024), i = ix4 b c y z := ⟨i 0, i 1, i 2, i 3, eq_ix4 i⟩
  have hb := b.isLt; have hc := c.isLt
  -- the pixel's plane among the 48
  let n : Fin 48 := ⟨b.val * 3 + c.val, by omega⟩
  refine (shapeCast_apply _ h3 (ix4 b c y z) (ix3 n y z) ?_).trans ?_
  · rw [Shape.rowMajor_val_three, Shape.rowMajor_val_four]
    show ((b.val * 3 + c.val) * 1024 + y.val) * 1024 + z.val = ((b.val * 3 + c.val) * 1024 + y.val) * 1024 + z.val
    rfl
  -- the flattened batch at (n, y, x) is the batch at (b, c, y, x)
  have ea : shapeCast Planes x h1 (ix3 n y z) = x (ix4 b c y z) :=
    shapeCast_apply x h1 (ix3 n y z) (ix4 b c y z) (by
      rw [Shape.rowMajor_val_three, Shape.rowMajor_val_four]
      show ((b.val * 3 + c.val) * 1024 + y.val) * 1024 + z.val = ((b.val * 3 + c.val) * 1024 + y.val) * 1024 + z.val
      rfl)
  -- the n-th corner scalar is the batch at (b, c, 0, 0)
  have ek : shapeCast PlaneCorners (extractStridedSlice Corners ![0, 0, 0, 0] x hs) h2 (ix3 n (0 : Fin 1) (0 : Fin 1))
      = x (ix4 b c (0 : Fin 1024) (0 : Fin 1024)) :=
    (shapeCast_apply _ h2 (ix3 n (0 : Fin 1) (0 : Fin 1)) (ix4 b c (0 : Fin 1) (0 : Fin 1)) (by
      rw [Shape.rowMajor_val_three, Shape.rowMajor_val_four]
      show ((b.val * 3 + c.val) * 1 + 0) * 1 + 0 = ((b.val * 3 + c.val) * 1 + 0) * 1 + 0
      rfl)).trans
    (extractStridedSlice_apply ![0, 0, 0, 0] x hs (ix4 b c (0 : Fin 1) (0 : Fin 1)) (ix4 b c (0 : Fin 1024) (0 : Fin 1024)) (fun a =>
      match a with
      | ⟨0, _⟩ => by show b.val = 0 + b.val; omega
      | ⟨1, _⟩ => by show c.val = 0 + c.val; omega
      | ⟨2, _⟩ => by show 0 = 0 + 0; rfl
      | ⟨3, _⟩ => by show 0 = 0 + 0; rfl))
  show Scalar.select (FloatOps.cmpf .one (shapeCast Planes x h1 (ix3 n y z))
      (shapeCast PlaneCorners (extractStridedSlice Corners ![0, 0, 0, 0] x hs) h2 (ix3 n (0 : Fin 1) (0 : Fin 1)))) differs same
    = Scalar.select (FloatOps.cmpf .une (x (ix4 b c y z)) (x (ix4 b c (0 : Fin 1024) (0 : Fin 1024)))) differs same
  rw [ea, ek, cmp_one_eq_une]

end Cert.CornerMarks

end
-- ==== Proof.KernelBlocks.lean ====
/-
  What the kernel's region leaves in its output array.

  The region walks the 48 planes, one grid point per plane. At point t it is handed block t of the flattened batch
  (one whole 1024 × 1024 plane) and block t of the 48 corner scalars (one scalar), and it stores, over the whole output
  block, the comparison of every pixel of the plane with that scalar, selecting between the two constant marks.

  Read pixel by pixel (payload_apply): the plane block passes through a cast to its own shape, the scalar through a
  cast to its own shape and a broadcast over the plane, so the stored value at pixel j is the mark of "block pixel j
  differs from the scalar". All three windows sit at block index (t, 0, 0) (index_facts), so pixel j of the output
  block is array position (t, j₁, j₂), the plane block's pixel j is the flattened batch there, and the scalar is the
  corner array at (t, 0, 0): what point t writes back is block t of planeMarks of the two arrays (flushed_eq).
  Every plane n is some point's block (plane_point), so the blocks cover the output array (covered) and the array
  ends holding planeMarks of the flattened batch and the corner scalars (region_output).
-/
import proofs.«112062_j57947698757992_1_alg».proof.Proof.Gen.KernelIdeal.Frame
import proofs.«112062_j57947698757992_1_alg».proof.Proof.CornerMarks
import Idealize.ShloMosaic.Lib.Pipeline.Value
import Idealize.ShloMosaic.Lib.ValueIdx

set_option maxRecDepth 16384

noncomputable section

namespace Cert.KernelIdeal.Marks

open Idealize.ShloMosaic Idealize.ShloMosaic.TcCoe Idealize.ShloMosaic.ValueIdx Idealize.SL.Sem
open Cert.KernelIdeal Cert.KernelIdeal.Gen Cert.CornerMarks
open Idealize.ShloMosaic.Pipeline (Dat)

variable (m : (ℓ : Loc nD τ sig) → Buf (Elt Ideal) ℓ)

/-- The origin of a rank-3 block, as the constant function. -/
theorem origin3 : (![0, 0, 0] : Fin 3 → Nat) = fun _ => 0 := funext fun a => by fin_cases a <;> rfl

/-- THE BODY AT A PIXEL: the mark of "the plane block's pixel differs from the one corner scalar". The two casts are
    to the operands' own shapes; the broadcast of a [1, 1, 1] vector reads its single element everywhere. -/
theorem payload_apply (p : Vec Ideal S1x1024x1024 .f32) (k : Vec Ideal S1x1x1 .f32) (j : S1x1024x1024.Idx) :
    k0_pay1 (F := Ideal) p k j
      = Scalar.select (FloatOps.cmpf (F := Ideal) (φ := .f32) .one (p j) (k (ix3 (0 : Fin 1) (0 : Fin 1) (0 : Fin 1)))) differs same := by
  unfold k0_pay1
  rw [shapeCast_self, shapeCast_self]
  show Scalar.select (FloatOps.cmpf (F := Ideal) (φ := .f32) .one (p j) (broadcastTo S1x1024x1024 k broadcasts_S1x1x1_S1x1024x1024 j)) differs same = _
  rw [broadcastTo_apply k broadcasts_S1x1x1_S1x1024x1024 j (ix3 (0 : Fin 1) (0 : Fin 1) (0 : Fin 1)) (fun a =>
    match a with
    | ⟨0, _⟩ => by show 0 = if (1 : Nat) = 1 then 0 else _; rw [if_pos rfl]
    | ⟨1, _⟩ => by show 0 = if (1 : Nat) = 1 then 0 else _; rw [if_pos rfl]
    | ⟨2, _⟩ => by show 0 = if (1 : Nat) = 1 then 0 else _; rw [if_pos rfl])]

/-- The three windows' block indices at every grid point: all at the point's plane on the leading axis, at 0 on the
    other two (decided over the 48 points). -/
theorem index_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (1 : Fin 3) = 0 ∧ win0_2.index t (2 : Fin 3) = 0 :=
  (by decide +kernel : ∀ t : Fin grid0.N, _)

/-- Every plane is some grid point's output block. -/
theorem plane_point : ∀ n : Fin 48, ∃ t : Fin cfg0.N, win0_2.index t = ![n.val, 0, 0] :=
  (by decide +kernel : ∀ n : Fin 48, ∃ t : Fin grid0.N, win0_2.index t = ![n.val, 0, 0])

/-- WHAT POINT t WRITES BACK is block t of planeMarks of the flattened batch and the corner scalars as the region finds
    them: the single store covers the block; under it, the plane block's pixel j and the output block's pixel j are
    the same array position, and the scalar block's only element is the corner of that position's plane. -/
theorem flushed_eq (c : Dev nD) (t : Fin cfg0.N) :
    (dats m 0 c).flushed 2 t
      = ((cfg0.win 2).blk t).view.read (Elt Ideal) (planeMarks (V m c main_v0) (V m c main_v2)) := by
  show (cfg0.win 2).cut (grid0.coords t) ((dats m 0 c).after 2 t) = _
  rw [after0_2]
  unfold out0_2
  rw [View.canon_unit_zero origin3]
  simp only [View.ld_unit_zero (S := S1x1024x1024) origin3, View.ld_unit_zero (S := S1x1x1) origin3]
  obtain ⟨e0, e1, e2, e3, e4, e5, e6, e7⟩ := index_facts t
  funext j
  refine (payload_apply (iblk m c 1 t) (iblk m c 0 t) j).trans ?_
  show Scalar.select (FloatOps.cmpf (F := Ideal) (φ := .f32) .one (V m c main_v0 (((cfg0.win 1).blk t).view.emb j))
        (V m c main_v2 (((cfg0.win 0).blk t).view.emb (ix3 (0 : Fin 1) (0 : Fin 1) (0 : Fin 1))))) differs same
      = Scalar.select (FloatOps.cmpf (F := Ideal) (φ := .f32) .one (V m c main_v0 (((cfg0.win 2).blk t).view.emb j))
        (V m c main_v2 (ix3 ((((cfg0.win 2).blk t).view.emb j) 0) (0 : Fin 1) (0 : Fin 1)))) differs same
  have h1 : ((cfg0.win 1).blk t).view.emb j = ((cfg0.win 2).blk t).view.emb j := by
    funext a; apply Fin.ext
    match a with
    | ⟨0, _⟩ => show win0_1.index t (0 : Fin 3) * 1 + 1 * (j 0).val = win0_2.index t (0 : Fin 3) * 1 + 1 * (j 0).val; omega
    | ⟨1, _⟩ => show win0_1.index t (1 : Fin 3) * 1024 + 1 * (j 1).val = win0_2.index t (1 : Fin 3) * 1024 + 1 * (j 1).val; omega
    | ⟨2, _⟩ => show win0_1.index t (2 : Fin 3) * 1024 + 1 * (j 2).val = win0_2.index t (2 : Fin 3) * 1024 + 1 * (j 2).val; omega
  have h0 : ((cfg0.win 0).blk t).view.emb (ix3 (0 : Fin 1) (0 : Fin 1) (0 : Fin 1))
      = ix3 ((((cfg0.win 2).blk t).view.emb j) 0) (0 : Fin 1) (0 : Fin 1) := by
    have hj : (j 0).val < 1 := (j 0).isLt
    funext a; apply Fin.ext
    match a with
    | ⟨0, _⟩ => show win0_0.index t (0 : Fin 3) * 1 + 1 * 0 = win0_2.index t (0 : Fin 3) * 1 + 1 * (j 0).val; omega
    | ⟨1, _⟩ => show win0_0.index t (1 : Fin 3) * 1 + 1 * 0 = 0; omega
    | ⟨2, _⟩ => show win0_0.index t (2 : Fin 3) * 1 + 1 * 0 = 0; omega
  rw [h1, h0]
  rfl

/-- An array position is in point t's output block when each coordinate is in the block's range on its axis. -/
theorem mem_block (t : Fin cfg0.N) (i : S48x1024x1024.Idx) :
    i ∈ ((cfg0.win 2).blk t).view.set ↔ ∀ a : Fin 3, win0_2.index t a * S1x1024x1024.size a ≤ (i a).val ∧ (i a).val < win0_2.index t a * S1x1024x1024.size a + S1x1024x1024.size a := by
  show i ∈ ((View.whole main_v3).slice (win0_2.rect t)).set ↔ _
  rw [View.set_slice_whole, Rect.mem_set_unit]
  exact Iff.rfl

/-- The output blocks cover the array: position (n, y, x) is in the block of the point whose plane is n. -/
theorem covered (i : S48x1024x1024.Idx) :
    ∃ t : Fin cfg0.N, (cfg0.win 2).flush t = true ∧ i ∈ ((cfg0.win 2).blk t).view.set := by
  have h0 : (i 0).val < 48 := (i 0).isLt
  have h1 : (i 1).val < 1024 := (i 1).isLt
  have h2 : (i 2).val < 1024 := (i 2).isLt
  obtain ⟨t, ht⟩ := plane_point ⟨(i 0).val, h0⟩
  have q0 : win0_2.index t (0 : Fin 3) = (i 0).val := congrFun ht 0
  have q1 : win0_2.index t (1 : Fin 3) = 0 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1024 ≤ (i 2).val ∧ (i 2).val < win0_2.index t (2 : Fin 3) * 1024 + 1024; omega

/-- THE REGION'S OUTPUT ARRAY after the run: planeMarks of the flattened batch and the corner scalars. -/
theorem region_output (c : Dev nD) :
    (dats m 0 c).arrAt 2 cfg0.N = planeMarks (V m c main_v0) (V m c main_v2) :=
  (dats m 0 c).arrAt_eq_of_cover 2 (planeMarks (V m c main_v0) (V m c main_v2)) (fun t _ => flushed_eq m c t) covered

end Cert.KernelIdeal.Marks

end
-- ==== Proof.KernelMarks.lean ====
/-
  The kernel program's result is the corner marks.

  Around its region the program does four host steps. Before: it merges the two leading axes of the batch (the 48
  planes the region walks), slices the corner pixel of every plane out of the batch, and merges that slice's leading
  axes (the 48 corner scalars). After: it splits the leading axis of the region's output array back into 16 × 3.

  So the region finds the flattened batch and the corner scalars as those reshapes and that slice of the argument
  (planes_eq, corners_eq); its output array is planeMarks of the two (region_output, from the blocks); the program's
  result is the reshape of that array (result_eq); and the reshape of planeMarks of those reshapes is marks of the
  argument (flattened_marks). The run's own statement then says the result buffer holds marks of the argument and the
  argument is unchanged (run).
-/
import proofs.«112062_j57947698757992_1_alg».proof.Proof.KernelBlocks
import Idealize.ShloMosaic.Lib.StableHlo.Run

set_option maxRecDepth 16384

noncomputable section

namespace Cert.KernelIdeal.Marks

open Idealize.ShloMosaic Idealize.ShloMosaic.TcCoe Idealize.ShloMosaic.ValueIdx Idealize.SL.Sem
open Cert.KernelIdeal Cert.KernelIdeal.Gen Cert.CornerMarks
open Idealize.ShloMosaic.Pipeline (Dat)

variable (m : (ℓ : Loc nD τ sig) → Buf (Elt Ideal) ℓ) (ρ : Dev nD → PrngReg)

/-- The flattened batch as the region finds it: the argument with its two leading axes merged. -/
theorem planes_eq (c : Dev nD) :
    (V m c main_v0 : S48x1024x1024.Idx → Elt Ideal .f32)
      = shapeCast S48x1024x1024 (m ((c : Thread nD τ).loc main_arg0)) shapeCasts_S16x3x1024x1024_S48x1024x1024 := by
  show StableHlo.after hostOps0 (fun b => m (c, b)) (Proc.devRef .tc main_v0) = _
  after_results
  rfl

/-- The corner scalars as the region finds them: the argument's corner slice with its two leading axes merged. -/
theorem corners_eq (c : Dev nD) :
    (V m c main_v2 : S48x1x1.Idx → Elt Ideal .f32)
      = shapeCast S48x1x1 (extractStridedSlice S16x3x1x1 ![0, 0, 0, 0] (m ((c : Thread nD τ).loc main_arg0)) slices_S16x3x1024x1024_S16x3x1x1_0_0_0_0) shapeCasts_S16x3x1x1_S48x1x1 := by
  show StableHlo.after hostOps0 (fun b => m (c, b)) (Proc.devRef .tc main_v2) = _
  after_results
  rfl

/-- The program's result after the line that follows the region: the region's output array with its leading axis
    split into 16 × 3. -/
theorem result_eq (c : Dev nD) :
    (Pipeline.afterTail₀ cfgs (dats m) 0 (V0 m) [hostOps1] c main_v4 : S16x3x1024x1024.Idx → Elt Ideal .f32)
      = shapeCast S16x3x1024x1024 ((dats m 0 c).arrAt 2 cfg0.N) shapeCasts_S48x1024x1024_S16x3x1024x1024 := by
  unfold Pipeline.afterTail₀
  show StableHlo.after hostOps1 _ (Proc.devRef .tc main_v4) = _
  after_results
  have e : Pipeline.withArrays spec0 c (V0 m c) (fun w => (dats m 0 c).arrAt w cfg0.N) (Proc.devRef .tc main_v3)
      = (dats m 0 c).arrAt 2 cfg0.N :=
    Pipeline.withArrays_arr spec0 launch0.win.arr_inj c (V0 m c) (fun w => (dats m 0 c).arrAt w cfg0.N) 2
  show shapeCast S16x3x1024x1024 (Pipeline.withArrays spec0 c (V0 m c) (fun w => (dats m 0 c).arrAt w cfg0.N) (Proc.devRef .tc main_v3))
      shapeCasts_S48x1024x1024_S16x3x1024x1024 = _
  rw [e]

/-- THE RESULT is marks of the argument. -/
theorem result_marks (c : Dev nD) :
    (Pipeline.afterTail₀ cfgs (dats m) 0 (V0 m) [hostOps1] c main_v4 : S16x3x1024x1024.Idx → Elt Ideal .f32)
      = marks (m ((c : Thread nD τ).loc main_arg0)) := by
  rw [result_eq, region_output, planes_eq, corners_eq]
  exact flattened_marks _ _ _ _ _

/-- THE RUN: every weakly fair execution of the kernel program ends with the result buffer at marks of the argument and
    the argument as it was. -/
theorem run : θ_run defs (onTc (τ := τ) (main (F := Ideal))) ⟨m, fun _ => 0, ρ⟩ fun r => ∀ c : Dev nD,
      r.2.mem ((c.tc : Thread nD τ).loc main_v4) = marks (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v4 (Pipeline.mem_restRefs_of main_v4 (by decide) (by decide))).trans (result_marks m c),
       ((h c).2 main_arg0 (Pipeline.mem_restRefs_of main_arg0 (by decide) (by decide))).trans (W_main_arg0 m (dats m) c)⟩)
    (run_main m ρ)

end Cert.KernelIdeal.Marks

end
-- ==== Proof.ReferenceMarks.lean ====
/-
  The reference computes the corner marks.

  The reference slices the corner pixel of every plane out of the batch, broadcasts it back over its plane, compares
  the batch with that broadcast ("unordered or different") and selects between the two constant marks. Read at a pixel
  (b, c, y, x): the broadcast corner is the batch at (b, c, 0, 0), because the slice keeps the two leading coordinates
  and takes the other two at their offset 0, and the broadcast repeats along the two unit axes. The two marks are the
  same patterns the specification names. So the reference's result is the function marks of CornerMarks.
-/
import proofs.«112062_j57947698757992_1_alg».proof.Proof.Gen.ReferenceIdeal.Read
import proofs.«112062_j57947698757992_1_alg».proof.Proof.CornerMarks

noncomputable section

namespace Cert.ReferenceIdeal.Marks

open Idealize.ShloMosaic Idealize.ShloMosaic.ValueIdx Cert.ReferenceIdeal Cert.ReferenceIdeal.Read Cert.CornerMarks

/-- Where the broadcast of the sliced corners reads the batch: at the corner of the pixel's own plane. -/
theorem corner_index (i : S16x3x1024x1024.Idx) :
    idx_main_v0 (idx_main_v1 i) = ix4 (i 0) (i 1) (0 : Fin 1024) (0 : Fin 1024) :=
  funext fun a => Fin.ext (by match a with | ⟨0, _⟩ => rfl | ⟨1, _⟩ => rfl | ⟨2, _⟩ => rfl | ⟨3, _⟩ => rfl)

/-- The reference's last stage, as a function of the batch, is marks. -/
theorem result_eq_marks (x : (⟨S16x3x1024x1024, .f32⟩ : BufTy).Contents (Elt Ideal)) :
    val_main_v3 (F := Ideal) x = marks x := by
  funext i
  rw [val_main_v3_apply, val_main_v2_apply, val_main_v1_apply, val_main_v0_apply, val_main_call0_v0_apply,
    val_main_cst_apply, val_main_call0_v1_apply, val_main_cst_0_apply, corner_index]
  rfl

end Cert.ReferenceIdeal.Marks

end
-- ==== Proof.lean ====
/-
  The kernel marks each pixel of a batch of 16 × 3 image planes by whether it differs from the top-left pixel of its
  own plane; the reference does the same with one broadcast compare. Both results are the function marks
  (Proof/CornerMarks.lean) of the input, on extended reals and for every input:

    * the kernel flattens the batch to 48 planes, hands the region one plane and one corner scalar per grid point,
      and splits the answer's leading axis again; its result buffer ends at marks of the argument
      (Proof/KernelBlocks.lean for the region's output array, Proof/KernelMarks.lean for the host lines and the run);
    * the reference's run ends at its composed term, which read at a pixel is marks of the argument
      (Proof/ReferenceMarks.lean, over the generated run and its read-at-an-index lemmas).

  The kernel compares with the ordered "not equal", the reference with the unordered one; on extended reals they are
  the same test. The precondition (every input finite) is not used: the two sides agree at infinities as well.
  The three frames are the generated frame proofs (the reference's is its run with the result dropped), and the
  idealization rewrote nothing, so there is nothing to preserve.
-/
import proofs.«112062_j57947698757992_1_alg».proof.Defs
import proofs.«112062_j57947698757992_1_alg».proof.Proof.Gen.Kernel.Frame
import proofs.«112062_j57947698757992_1_alg».proof.Proof.Gen.KernelIdeal.Frame
import proofs.«112062_j57947698757992_1_alg».proof.Proof.Gen.ReferenceIdeal.Run
import proofs.«112062_j57947698757992_1_alg».proof.Proof.Gen.ReferenceIdeal.Read
import proofs.«112062_j57947698757992_1_alg».proof.Proof.Gen.Pre_finite_inputs
import proofs.«112062_j57947698757992_1_alg».proof.Proof.KernelMarks
import proofs.«112062_j57947698757992_1_alg».proof.Proof.ReferenceMarks

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the argument, the kernel program ends with marks of its argument in its result and the
    reference with its composed term, which is marks of ITS argument: the same array. -/
theorem algebraic : Cert.algebraic_KernelIdeal_ReferenceIdeal := by
  intro m ρ m' ρ' _ hagree
  refine ⟨fun c => Cert.CornerMarks.marks (m ((c.tc : Thread Cert.KernelIdeal.nD Cert.KernelIdeal.τ).loc Cert.KernelIdeal.main_arg0)),
    Cert.KernelIdeal.Marks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.Marks.result_eq_marks, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
